-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S256x256 : Shape := ⟨2, ![256, 256]⟩
abbrev S1x256x1 : Shape := ⟨3, ![1, 256, 1]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256x1 : S_.BroadcastsInDim S1x256x1 (![] : Fin 0 → Fin S1x256x1.rank)
  reducesTo_S1x256x1_S_d0_1_2 : S1x256x1.ReducesTo [0, 1, 2] S_

variable [Facts]

def fn {F : FTy → Type} [FloatOps F] (main_arg0 : FVec F S2x1024x256 .f32) (main_arg1 : FVec F S256x256 .f32) (main_arg2 : FVec F S1x256x1 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256x1 .f32 := Host.absf main_arg2
  let main_cst_2 : FVec F S_ .f32 := constant S_ .f32 0x7F800000#32
  let main_v10 : FVec F S1x256x1 .f32 := broadcastInDim S1x256x1 ![] bcast_S_S1x256x1 main_cst_2
  let main_v11 : IVec S1x256x1 1 := cmpf .olt main_v9 main_v10
  let main_c_3 : IVec S_ 1 := constantI S_ 1 1#1
  let main_v12 : IVec S_ 1 := (fun x v => Host.reduce IntOp.andi x v reducesTo_S1x256x1_S_d0_1_2 h_S_) main_v11 main_c_3
  let main_v13 : IVec S_ 1 := andi main_v8 main_v12
  main_v13
-- ==== Kernel.lean ====
abbrev S2x1024x256 : Shape := ⟨3, ![2, 1024, 256]⟩
abbrev S256x256 : Shape := ⟨2, ![256, 256]⟩
abbrev S1x256x1 : Shape := ⟨3, ![1, 256, 1]⟩
abbrev S2048x256 : Shape := ⟨2, ![2048, 256]⟩
abbrev S1x256 : Shape := ⟨2, ![1, 256]⟩
abbrev S256 : Shape := ⟨1, ![256]⟩
abbrev S256x1 : Shape := ⟨2, ![256, 1]⟩
abbrev S256x64 : Shape := ⟨2, ![256, 64]⟩
abbrev S256x64x1 : Shape := ⟨3, ![256, 64, 1]⟩
abbrev S64x256 : Shape := ⟨2, ![64, 256]⟩
abbrev S1x64x256 : Shape := ⟨3, ![1, 64, 256]⟩
abbrev S256x64x256 : Shape := ⟨3, ![256, 64, 256]⟩

abbrev nBuf : Space → Nat
  | .hbm => 7
  | .vmem => 6
  | .smem => 0
  | _ => 0

abbrev bufTy : (tb : Table) → Fin (tcTables nBuf tb) → BufTy
  | .hbm, ⟨0, _⟩ => ⟨S2x1024x256, .f32⟩
  | .hbm, ⟨1, _⟩ => ⟨S256x256, .f32⟩
  | .hbm, ⟨2, _⟩ => ⟨S1x256x1, .f32⟩
  | .hbm, ⟨3, _⟩ => ⟨S2048x256, .f32⟩
  | .hbm, ⟨4, _⟩ => ⟨S1x256, .f32⟩
  | .hbm, ⟨5, _⟩ => ⟨S2048x256, .f32⟩
  | .hbm, ⟨6, _⟩ => ⟨S2x1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x1024x256_S2048x256 : S2x1024x256.ShapeCasts S2048x256
  shapeCasts_S1x256x1_S1x256 : S1x256x1.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  transposes_S256x256_p1_0_S256x256 : S256x256.Transposes [1, 0] S256x256
  reduces_S256x256_S256 : S256x256.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  slices_S256x256_o0_0_S256x64 : S256x256.Slices ![0, 0] S256x64
  shapeCasts_S256x64_S256x64x1 : S256x64.ShapeCasts S256x64x1
  transposes_S256x64_p1_0_S64x256 : S256x64.Transposes [1, 0] S64x256
  shapeCasts_S64x256_S1x64x256 : S64x256.ShapeCasts S1x64x256
  broadcasts_S256x64x1_S256x64x256 : S256x64x1.Broadcasts S256x64x256
  broadcasts_S1x64x256_S256x64x256 : S1x64x256.Broadcasts S256x64x256
  reduces_S256x64x256_S256x256 : S256x64x256.Reduces [1] S256x256
  slices_S256x256_o0_64_S256x64 : S256x256.Slices ![0, 64] S256x64
  slices_S256x256_o0_128_S256x64 : S256x256.Slices ![0, 128] S256x64
  slices_S256x256_o0_192_S256x64 : S256x256.Slices ![0, 192] S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2048x256_S2x1024x256 : S2048x256.ShapeCasts S2x1024x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x256.size a
  hwx0_3 : ∀ i : grid0.Coords, EltTy.bits .f32 = 32 ∨ (Rect.block (s := S2048x256) S256x256.size (cc0_transform_3 i) (hinb0_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1024x256 : Shape := ⟨3, ![2, 1024, 256]⟩
abbrev S256x256 : Shape := ⟨2, ![256, 256]⟩
abbrev S1x256x1 : Shape := ⟨3, ![1, 256, 1]⟩
abbrev S2048x256 : Shape := ⟨2, ![2048, 256]⟩
abbrev S2048x1x256 : Shape := ⟨3, ![2048, 1, 256]⟩
abbrev S1x256x256 : Shape := ⟨3, ![1, 256, 256]⟩
abbrev S2048x256x256 : Shape := ⟨3, ![2048, 256, 256]⟩
abbrev S_ : Shape := ⟨0, ![]⟩
abbrev S2048 : Shape := ⟨1, ![2048]⟩
abbrev S256 : Shape := ⟨1, ![256]⟩
abbrev S2048x1 : Shape := ⟨2, ![2048, 1]⟩
abbrev S1x256 : Shape := ⟨2, ![1, 256]⟩
abbrev S1x1x256 : Shape := ⟨3, ![1, 1, 256]⟩

abbrev nBuf : Space → Nat
  | .hbm => 52
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S256x256, .f32⟩
  | .hbm, ⟨2, _⟩ => ⟨S1x256x1, .f32⟩
  | .hbm, ⟨3, _⟩ => ⟨S2x1024x256, .f32⟩
  | .hbm, ⟨4, _⟩ => ⟨S2048x256, .f32⟩
  | .hbm, ⟨5, _⟩ => ⟨S256x256, .f32⟩
  | .hbm, ⟨6, _⟩ => ⟨S2048x1x256, .f32⟩
  | .hbm, ⟨7, _⟩ => ⟨S1x256x256, .f32⟩
  | .hbm, ⟨8, _⟩ => ⟨S2048x256x256, .f32⟩
  | .hbm, ⟨9, _⟩ => ⟨S2048x256x256, .f32⟩
  | .hbm, ⟨10, _⟩ => ⟨S2048x256x256, .f32⟩
  | .hbm, ⟨11, _⟩ => ⟨S2048x256x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S2048x1, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S256x256, .f32⟩
  | .hbm, ⟨26, _⟩ => ⟨S2048x256, .f32⟩
  | .hbm, ⟨27, _⟩ => ⟨S_, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048x256, .f32⟩
  | .hbm, ⟨44, _⟩ => ⟨S2048x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | .hbm, ⟨49, _⟩ => ⟨S1x1x256, .f32⟩
  | .hbm, ⟨50, _⟩ => ⟨S2x1024x256, .f32⟩
  | .hbm, ⟨51, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  shapeCasts_S2x1024x256_S2048x256 : S2x1024x256.ShapeCasts S2048x256
  bcast_S2048x256_S2048x1x256_0_2 : S2048x256.BroadcastsInDim S2048x1x256 (![0, 2] : Fin 2 → Fin S2048x1x256.rank)
  bcast_S256x256_S1x256x256_1_2 : S256x256.BroadcastsInDim S1x256x256 (![1, 2] : Fin 2 → Fin S1x256x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  h_S_ : 0 < S_.numel
  reducesTo_S2048x256_S2048_d1 : S2048x256.ReducesTo [1] S2048
  reducesTo_S256x256_S256_d1 : S256x256.ReducesTo [1] S256
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  transposes_S256x256_S256x256_1_0 : S256x256.Transposes [1, 0] S256x256
  bcast_S_S2048x256 : S_.BroadcastsInDim S2048x256 (![] : Fin 0 → Fin S2048x256.rank)
  shapeCasts_S2048x256_S2x1024x256 : S2048x256.ShapeCasts S2x1024x256
  bcast_S_S2x1024x256 : S_.BroadcastsInDim S2x1024x256 (![] : Fin 0 → Fin S2x1024x256.rank)
  shapeCasts_S1x256x1_S1x1x256 : S1x256x1.ShapeCasts S1x1x256
  bcast_S1x1x256_S2x1024x256_0_1_2 : S1x1x256.BroadcastsInDim S2x1024x256 (![0, 1, 2] : Fin 3 → Fin S2x1024x256.rank)
  dot_S2048x256_S256x256_S2048x256_1_0_0_1_n_n_wf : DotDims.WF S2048x256 S256x256 S2048x256 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.Spec.lean ====
/-
  The value both programs compute, one entry at a time.

  Write a = tanh x for the activations and b = tanh w for the weights. For a row n of a (256 numbers) and a row d of b
  (256 numbers) the entry (n, d) of the result is built from two distances between the rows:
    • the L1 distance            l1 = Σ_k |a_k − b_k|, with |t| = max t (−t);
    • the squared L2 distance by the expansion ‖a‖² + ‖b‖² − 2⟨a, b⟩, clipped at zero:
                                 l2 = max ((Σ_k a_k² + Σ_k b_k²) − 2 · Σ_k a_k b_k) 0.
  Both are scaled by 1/256 (an exact power of two), combined as (l1/256 − l2/256) + l2/256 — the two l2 terms are
  left as they stand, nothing is cancelled —, and the entry is ((1 − that) − 1/2) · gain_d.
  Everything is on the extended reals; the only law used between the two programs is that a sum of 256 terms may be
  taken as four sums of 64 consecutive terms added up one after the other, which holds in every commutative monoid.
-/
import Idealize.ShloMosaic.Lib.ValueIdx
import Idealize.ShloMosaic.PureOps.Ideal.Laws

noncomputable section

namespace DistProxy

open Idealize.ShloMosaic Idealize.ShloMosaic.ValueIdx

/-! ## The constants, as the words both programs print -/

/-- 2, the factor of the inner product. -/
abbrev two : EReal := Ideal.ofBits .f32 0x40000000#32
/-- 1/256, the mean over the 256 input features. -/
abbrev invDin : EReal := Ideal.ofBits .f32 0x3B800000#32
/-- 1. -/
abbrev one : EReal := Ideal.ofBits .f32 0x3F800000#32
/-- 1/2. -/
abbrev half : EReal := Ideal.ofBits .f32 0x3F000000#32

/-! ## One entry -/

/-- The L1 distance between two rows. -/
def l1 (a b : Fin 256 → EReal) : EReal := ∑ k, max (a k - b k) (-(a k - b k))

/-- The squared L2 distance between two rows by the expansion of the square, clipped at zero. -/
def l2sq (a b : Fin 256 → EReal) : EReal :=
  max ((∑ k, a k * a k + ∑ k, b k * b k) - two * ∑ k, a k * b k) 0

/-- The entry for an activation row `a`, a weight row `b` and the gain `g` of that weight row. -/
def entry (a b : Fin 256 → EReal) (g : EReal) : EReal :=
  ((one - ((l1 a b * invDin - l2sq a b * invDin) + l2sq a b * invDin)) - half) * g

/-! ## A sum of 256 terms in four chunks of 64 -/

/-- Term `j` of chunk `c`. -/
def chunk (c : Fin 4) (j : Fin 64) : Fin 256 :=
  ⟨64 * c.val + j.val, by have := c.isLt; have := j.isLt; omega⟩

theorem chunk_val (c : Fin 4) (j : Fin 64) : (chunk c j).val = 64 * c.val + j.val := rfl

/-- Chunk and position within it determine the term, and every term has them. -/
def chunkEquiv : Fin 4 × Fin 64 ≃ Fin 256 where
  toFun p := chunk p.1 p.2
  invFun k := (⟨k.val / 64, by have := k.isLt; omega⟩, ⟨k.val % 64, Nat.mod_lt _ (by decide)⟩)
  left_inv p := by
    obtain ⟨c, j⟩ := p
    have hc := c.isLt
    have hj := j.isLt
    refine Prod.ext (Fin.ext ?_) (Fin.ext ?_)
    · show (64 * c.val + j.val) / 64 = c.val
      omega
    · show (64 * c.val + j.val) % 64 = j.val
      omega
  right_inv k := by
    apply Fin.ext
    show 64 * (k.val / 64) + k.val % 64 = k.val
    omega

/-- Adding the four chunk sums one after the other, from zero, gives the whole sum. -/
theorem sum_chunks {M : Type*} [AddCommMonoid M] (f : Fin 256 → M) :
    (((0 + ∑ j : Fin 64, f (chunk 0 j)) + ∑ j : Fin 64, f (chunk 1 j)) + ∑ j : Fin 64, f (chunk 2 j))
        + ∑ j : Fin 64, f (chunk 3 j)
      = ∑ k : Fin 256, f k := by
  rw [← Equiv.sum_comp chunkEquiv f, Fintype.sum_prod_type, Fin.sum_univ_four, zero_add]
  rfl

/-! ## The result as one function of the argument arrays -/

/-- Over the flattened rows: entry (n, d) from row n of the activations' source, row d of the weights' source, and
    the gain at d. -/
def resultRows (x : (⟨2, ![2048, 256]⟩ : Shape).Idx → EReal) (w : (⟨2, ![256, 256]⟩ : Shape).Idx → EReal)
    (g : (⟨2, ![1, 256]⟩ : Shape).Idx → EReal) : (⟨2, ![2048, 256]⟩ : Shape).Idx → EReal := fun i =>
  entry (fun k => Ideal.tanh (x (ix2 (i 0) k))) (fun k => Ideal.tanh (w (ix2 (i 1) k))) (g (ix2 (0 : Fin 1) (i 1)))

/-- Over the arguments as given: entry (s, t, d) from row (s, t) of `x`, row d of `w`, and the gain at d. -/
def result (x : (⟨3, ![2, 1024, 256]⟩ : Shape).Idx → EReal) (w : (⟨2, ![256, 256]⟩ : Shape).Idx → EReal)
    (g : (⟨3, ![1, 256, 1]⟩ : Shape).Idx → EReal) : (⟨3, ![2, 1024, 256]⟩ : Shape).Idx → EReal := fun i =>
  entry (fun k => Ideal.tanh (x (ix3 (i 0) (i 1) k))) (fun k => Ideal.tanh (w (ix2 (i 2) k)))
    (g (ix3 (0 : Fin 1) (i 2) (0 : Fin 1)))

end DistProxy

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.LibPairTable.lean ====
/-
  A pairwise table of two matrices, read at an index given by coordinates.

  To compare every row of an [a, b] matrix with every row of a [c, b] matrix, a program lays the first out as
  [a, b, 1] and the second, transposed, as [1, b, c], broadcasts both to [a, b, c], combines them entry by entry, and
  reduces along the middle axis. Read at coordinates each step looks at one element of its operand:
  • the view [a, b] → [a, b, 1] moves no element (the added last axis has extent one, so the row-major position is the same);
  • an [a, b, 1] array broadcast to [a, b, c] reads, at (p, q, s), its entry (p, q, 0);
  • a [1, b, c] array broadcast to [a, b, c] reads, at (p, q, s), its entry (0, q, s);
  • a sum along axis 1 of [a, b, c] reads, at (p, s), the b entries (p, 0, s) … (p, b − 1, s).
-/
import Idealize.ShloMosaic.Lib.ValueLayout
import Idealize.ShloMosaic.Lib.ValueIdx
import Idealize.ShloMosaic.PureOps.Ideal.Laws

noncomputable section

namespace PairTable

open Idealize.ShloMosaic Idealize.ShloMosaic.ValueIdx

variable {α : Type}

/-- An `[a, b]` array viewed as `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, s)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (s : Fin c) :
    broadcastTo ⟨3, ![a, b, c]⟩ v h (ix3 p q s) = v (ix3 p q (0 : Fin 1)) := by
  refine broadcastTo_apply v h (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, b, c]` array broadcast to `[a, b, c]` reads, at `(p, q, s)`, the operand at `(0, q, s)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ v h (ix3 p q s) = v (ix3 (0 : Fin 1) q s) := by
  refine broadcastTo_apply v h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- Over result index `(p, s)` of a reduction of `[a, b, c]` along axis 1, the source index with `k` inserted is `(p, k, s)`. -/
theorem lift_mid {a b c : ℕ} (h : (⟨3, ![a, b, c]⟩ : Shape).Reduces [1] ⟨2, ![a, c]⟩) (p : Fin a) (s : Fin c) (k : Fin b) :
    h.lift (ix2 p s) k = ix3 p k s :=
  funext fun d => Fin.ext (by match d with | ⟨0, _⟩ => rfl | ⟨1, _⟩ => rfl | ⟨2, _⟩ => rfl)

variable {φ : FTy}

/-- The sum along the middle axis, at the ideal values: entry `(p, s)` is the sum of the `b` entries `(p, k, s)`. -/
theorem multiReduction_add_mid {a b c : ℕ} (v : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (s : Fin c) :
    multiReduction .add [1] ⟨2, ![a, c]⟩ v acc h hφ hacc (ix2 p s) = ∑ k : Fin b, v (ix3 p k s) := by
  rw [Ideal.multiReduction_add_single]
  exact Finset.sum_congr rfl fun k _ => congrArg v (lift_mid h p s k)

end PairTable

end
-- ==== Proof.KernelBlock.lean ====
/-
  What one grid point leaves in its output block, entry by entry.

  The body loads a 256-row block of the flattened input, the whole weight matrix and the gain row, takes tanh of the
  first two (a and b below), and stores one 256 × 256 block. Read at (r, d) every operation of the body looks at row r
  of a, at row d of b, or at the gain at d:
    • ‖a_r‖² and ‖b_d‖² are lane sums kept as a column and, for b, turned into a row, then broadcast;
    • ⟨a_r, b_d⟩ is the matrix product of a with the transpose of b (the change to bf16 and back is the identity here);
    • the L1 distance is accumulated over four slices of 64 columns: each slice of a is laid out as [256, 64, 1], the
      slice of b transposed as [1, 64, 256], both broadcast to [256, 64, 256], and |a − b| is summed along the middle axis;
    • the rest is arithmetic entry by entry.
  So the entry is `DistProxy.entry` of the two rows and the gain, once the four slice sums are read as the whole sum.
-/
import proofs.«148587_j78245714199351_1_alg».proof.Proof.Gen.KernelIdeal.Frame
import proofs.«148587_j78245714199351_1_alg».proof.Proof.Spec
import proofs.«148587_j78245714199351_1_alg».proof.Proof.LibRowOps
import proofs.«148587_j78245714199351_1_alg».proof.Proof.LibPairTable
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx DistProxy

/-- The two offsets of a whole-block access, as the constant zero function. -/
theorem zero_offsets : (![0, 0] : Fin 2 → Nat) = fun _ => 0 := funext fun a => by fin_cases a <;> rfl

/-! ## The activations -/

/-- The block's activations: tanh, entry by entry (the view to its own shape moves nothing). -/
theorem act_x (v0 : Vec Ideal S256x256 .f32) : k0_pay2 (F := Ideal) v0 = fun i => Ideal.tanh (v0 i) := by
  unfold k0_pay2
  rw [shapeCast_self]
  rfl

/-- The weights' activations: tanh, entry by entry. -/
theorem act_w (v3 : Vec Ideal S256x256 .f32) : k0_pay3 (F := Ideal) v3 = fun i => Ideal.tanh (v3 i) := rfl

/-! ## The inner products: a times b transposed -/

abbrev xwDims := dot_S256x256_S256x256_S256x256_1_0_0_1_n_n

theorem lhs_xw_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_xw_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_xw_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_xw_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The product into a zero accumulator, at (r, d): the sum over k of the left operand at (r, k) times the right at (k, d). -/
theorem xw_apply (L R : FVec Ideal S256x256 .bf16) (r d : Fin 256) :
    matmul dot_S256x256_S256x256_S256x256_1_0_0_1_n_n none L R (constant S256x256 .f32 0x00000000#32) (ix2 r d)
      = ∑ k : Fin 256, L (ix2 r k) * R (ix2 k d) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r d) ((ValueIdx.contrEquiv1 dot_S256x256_S256x256_S256x256_1_0_0_1_n_n 256 rfl rfl).symm k) = ix2 r k := funext fun a => Fin.ext (by
    match a with
    | ⟨0, _⟩ => exact lhs_xw_0 _ _
    | ⟨1, _⟩ => exact (lhs_xw_1 _ _).trans hk)
  have er : dot_S256x256_S256x256_S256x256_1_0_0_1_n_n.rhsIdx (ix2 r d) ((ValueIdx.contrEquiv1 dot_S256x256_S256x256_S256x256_1_0_0_1_n_n 256 rfl rfl).symm k) = ix2 k d := funext fun a => Fin.ext (by
    match a with
    | ⟨0, _⟩ => exact (rhs_xw_0 _ _).trans hk
    | ⟨1, _⟩ => exact rhs_xw_1 _ _)
  rw [el, er]

/-! ## The squared L2 distance, clipped -/

/-- A row's sum of squares kept as a column and broadcast along the rows: at (r, d) it is the sum for row r. -/
theorem sq_col (A : FVec Ideal S256x256 .f32) (h1 : S256x256.Reduces [1] S256) (hφ : FKind.Formats .f32)
    (hacc : (0x00000000#32 : BitVec 32) = FKind.add.neutral .f32 hφ) (h2 : S256.ShapeCasts S256x1) (h3 : S256x1.Broadcasts S256x256)
    (r d : Fin 256) :
    broadcastTo S256x256 (shapeCast S256x1 (multiReduction .add [1] S256 (mulf A A) 0x00000000#32 h1 hφ hacc) h2) h3 (ix2 r d)
      = ∑ k : Fin 256, A (ix2 r k) * A (ix2 r k) := by
  rw [RowOps.broadcastTo_a1_ab_apply, RowOps.shapeCast_a_a1_apply, RowOps.multiReduction_add_row]
  rfl

/-- The same column turned into a row and broadcast down the columns: at (r, d) it is the sum for row d. -/
theorem sq_row (B : FVec Ideal S256x256 .f32) (h1 : S256x256.Reduces [1] S256) (hφ : FKind.Formats .f32)
    (hacc : (0x00000000#32 : BitVec 32) = FKind.add.neutral .f32 hφ) (h2 : S256.ShapeCasts S256x1)
    (h3 : S256x1.Transposes [1, 0] S1x256) (h4 : S1x256.Broadcasts S256x256) (r d : Fin 256) :
    broadcastTo S256x256 (transpose S1x256 [1, 0] (shapeCast S256x1 (multiReduction .add [1] S256 (mulf B B) 0x00000000#32 h1 hφ hacc) h2) h3) h4 (ix2 r d)
      = ∑ k : Fin 256, B (ix2 d k) * B (ix2 d k) := by
  rw [broadcastTo_1b_ab_apply, transpose_ix2_apply, RowOps.shapeCast_a_a1_apply, RowOps.multiReduction_add_row]
  rfl

/-- The product of a with b transposed, through the change of format: at (r, d) the inner product of row r of a and row d of b. -/
theorem inner (A B : FVec Ideal S256x256 .f32) (h1 : FTy.bits .bf16 < FTy.bits .f32) (h2 : S256x256.Transposes [1, 0] S256x256)
    (r d : Fin 256) :
    matmul dot_S256x256_S256x256_S256x256_1_0_0_1_n_n none (truncf .bf16 A h1) (transpose S256x256 [1, 0] (truncf .bf16 B h1) h2)
        (constant S256x256 .f32 0x00000000#32) (ix2 r d)
      = ∑ k : Fin 256, A (ix2 r k) * B (ix2 d k) := by
  rw [xw_apply]
  refine Finset.sum_congr rfl fun k _ => ?_
  rw [transpose_ix2_apply]
  rfl

/-- The clipped expansion at (r, d), over the activations a = `k0_pay2 v0` and b = `k0_pay3 v3`. -/
theorem l2_apply (v0 v3 : Vec Ideal S256x256 .f32) (r d : Fin 256) :
    k0_pay4 (F := Ideal) v0 v3 (ix2 r d)
      = l2sq (fun k => k0_pay2 (F := Ideal) v0 (ix2 r k)) (fun k => k0_pay3 (F := Ideal) v3 (ix2 d k)) := by
  unfold k0_pay4 l2sq
  generalize k0_pay2 (F := Ideal) v0 = A
  generalize k0_pay3 (F := Ideal) v3 = B
  dsimp only
  rw [maximumf_apply, subf_apply, addf_apply, mulf_apply, broadcast_apply, broadcast_apply]
  exact congrArg₂ max (congrArg₂ (· - ·) (congrArg₂ (· + ·) (sq_col A _ _ _ _ _ r d) (sq_row B _ _ _ _ _ _ r d))
    (congrArg (_ * ·) (inner A B _ _ r d))) Ideal.ofBits_zero_f32

/-! ## The L1 distance, slice by slice -/

/-- One slice of 64 columns starting at `o = 64 c`: the sum along the middle axis of |a − b| laid out pairwise reads, at
    (r, d), the 64 terms |a (r, k) − b (d, k)| with k in chunk c. -/
theorem l1_slice (A B : FVec Ideal S256x256 .f32) (o : Nat) (c : Fin 4) (ho : o = 64 * c.val)
    (hs : S256x256.Slices ![0, o] S256x64) (h1 : S256x64.ShapeCasts S256x64x1) (h2 : S256x64.Transposes [1, 0] S64x256)
    (h3 : S64x256.ShapeCasts S1x64x256) (h4 : S256x64x1.Broadcasts S256x64x256) (h5 : S1x64x256.Broadcasts S256x64x256)
    (h6 : S256x64x256.Reduces [1] S256x256) (hφ : FKind.Formats .f32) (hacc : (0x00000000#32 : BitVec 32) = FKind.add.neutral .f32 hφ)
    (r d : Fin 256) :
    multiReduction .add [1] S256x256
        (absf (subf (broadcastTo S256x64x256 (shapeCast S256x64x1 (extractStridedSlice S256x64 ![0, o] A hs) h1) h4)
          (broadcastTo S256x64x256 (shapeCast S1x64x256 (transpose S64x256 [1, 0] (extractStridedSlice S256x64 ![0, o] B hs) h2) h3) h5)))
        0x00000000#32 h6 hφ hacc (ix2 r d)
      = ∑ j : Fin 64, max (A (ix2 r (chunk c j)) - B (ix2 d (chunk c j))) (-(A (ix2 r (chunk c j)) - B (ix2 d (chunk c j)))) := by
  rw [PairTable.multiReduction_add_mid]
  refine Finset.sum_congr rfl fun j _ => ?_
  have hk : (chunk c j).val = o + j.val := by rw [chunk_val, ho]
  have ea : broadcastTo S256x64x256 (shapeCast S256x64x1 (extractStridedSlice S256x64 ![0, o] A hs) h1) h4 (ix3 r j d)
      = A (ix2 r (chunk c j)) := by
    rw [PairTable.broadcastTo_ab1_abc_apply, PairTable.shapeCast_ab_ab1_apply, slice2_axis1_apply o A hs r j (chunk c j) hk]
  have eb : broadcastTo S256x64x256 (shapeCast S1x64x256 (transpose S64x256 [1, 0] (extractStridedSlice S256x64 ![0, o] B hs) h2) h3) h5 (ix3 r j d)
      = B (ix2 d (chunk c j)) := by
    rw [PairTable.broadcastTo_1bc_abc_apply, shapeCast_ab_1ab_apply, transpose_ix2_apply, slice2_axis1_apply o B hs d j (chunk c j) hk]
  show max (_ - _) (-(_ - _)) = _
  rw [ea, eb]

/-- |a − b| at one pair of columns. -/
abbrev absDiff (A B : FVec Ideal S256x256 .f32) (r d : Fin 256) (k : Fin 256) : EReal :=
  max (A (ix2 r k) - B (ix2 d k)) (-(A (ix2 r k) - B (ix2 d k)))

/-- The first two slices, added from zero. -/
theorem l1_first_half (v0 v3 : Vec Ideal S256x256 .f32) (r d : Fin 256) :
    k0_pay5 (F := Ideal) v0 v3 (ix2 r d)
      = (0 + ∑ j : Fin 64, absDiff (k0_pay2 (F := Ideal) v0) (k0_pay3 (F := Ideal) v3) r d (chunk 0 j))
        + ∑ j : Fin 64, absDiff (k0_pay2 (F := Ideal) v0) (k0_pay3 (F := Ideal) v3) r d (chunk 1 j) := by
  unfold k0_pay5
  generalize k0_pay2 (F := Ideal) v0 = A
  generalize k0_pay3 (F := Ideal) v3 = B
  dsimp only
  rw [addf_apply, addf_apply, broadcast_apply]
  exact congrArg₂ (· + ·) (congrArg₂ (· + ·) Ideal.ofBits_zero_f32 (l1_slice A B 0 0 rfl _ _ _ _ _ _ _ _ _ r d))
    (l1_slice A B 64 1 rfl _ _ _ _ _ _ _ _ _ r d)

/-- The gain row broadcast down the columns: at (r, d) the gain at d. -/
theorem gain_row (g : Vec Ideal S1x256 .f32) (h1 : S1x256.ShapeCasts S1x256) (h2 : S1x256.Broadcasts S256x256) (r d : Fin 256) :
    broadcastTo S256x256 (shapeCast S1x256 g h1) h2 (ix2 r d) = g (ix2 (0 : Fin 1) d) := by
  rw [broadcastTo_1b_ab_apply, shapeCast_self]

/-- The last two slices added to what the first two gave, and the arithmetic after the sums. -/
theorem tail_apply (A B l2 acc : FVec Ideal S256x256 .f32) (g : Vec Ideal S1x256 .f32) (r d : Fin 256) :
    k0_pay1 (F := Ideal) A B l2 acc g (ix2 r d)
      = ((one - ((((acc (ix2 r d) + ∑ j : Fin 64, absDiff A B r d (chunk 2 j)) + ∑ j : Fin 64, absDiff A B r d (chunk 3 j)) * invDin
            - l2 (ix2 r d) * invDin) + l2 (ix2 r d) * invDin)) - half) * g (ix2 (0 : Fin 1) d) := by
  unfold k0_pay1
  dsimp only
  rw [mulf_apply, subf_apply, subf_apply, addf_apply, subf_apply, mulf_apply, mulf_apply, addf_apply, addf_apply,
    broadcast_apply, broadcast_apply, broadcast_apply]
  exact congrArg₂ (· * ·) (congrArg (· - _) (congrArg (_ - ·) (congrArg (· + _) (congrArg (· - _) (congrArg (· * _)
    (congrArg₂ (· + ·) (congrArg (_ + ·) (l1_slice A B 128 2 rfl _ _ _ _ _ _ _ _ _ r d)) (l1_slice A B 192 3 rfl _ _ _ _ _ _ _ _ _ r d)))))))
    (gain_row g _ _ r d)

/-! ## The block -/

/-- What the body leaves in the output block at (r, d): the entry for row r of the loaded block, row d of the weights,
    and the gain at d. -/
theorem out_apply (x0 x1 : Vec Ideal S256x256 .f32) (x2 : Vec Ideal S1x256 .f32) (r d : Fin 256) :
    out0_3 (F := Ideal) x0 x1 x2 (ix2 r d)
      = entry (fun k => Ideal.tanh (x0 (ix2 r k))) (fun k => Ideal.tanh (x1 (ix2 d k))) (x2 (ix2 (0 : Fin 1) d)) := by
  unfold out0_3
  rw [View.canon_unit_zero zero_offsets]
  simp only [View.ld_unit_zero (S := S256x256) zero_offsets, View.ld_unit_zero (S := S1x256) zero_offsets]
  rw [tail_apply, l2_apply, l1_first_half, sum_chunks (absDiff (k0_pay2 (F := Ideal) x0) (k0_pay3 (F := Ideal) x1) r d), act_x, act_w]
  rfl

end Cert.KernelIdeal.BlockValue

end
-- ==== Proof.KernelArray.lean ====
/-
  The kernel's result array after the run, as one function of the arrays the region finds.

  The grid has 8 points. Point t loads rows 256 t … 256 t + 255 of the flattened input (window 0), the whole weight
  matrix and the whole gain row (windows 1 and 2, block (0, 0) at every point), and writes back rows
  256 t … 256 t + 255 of the result (window 3). By the block's entries (`BlockValue.out_apply`) what point t writes back
  is the block at t of `DistProxy.resultRows` of the three arrays; the 8 blocks cover all 2048 rows (row n lies in the
  block of point n / 256), so the result array ends at `resultRows` of the arrays as the region finds them.
-/
import proofs.«148587_j78245714199351_1_alg».proof.Proof.Gen.KernelIdeal.Frame
import proofs.«148587_j78245714199351_1_alg».proof.Proof.KernelBlock
import proofs.«148587_j78245714199351_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx DistProxy
open Idealize.ShloMosaic.Pipeline (Dat)

variable (m : (ℓ : Loc nD τ sig) → Buf (Elt Ideal) ℓ) (ρ : Dev nD → PrngReg)

/-! ## The index maps, decided over the grid -/

/-- Point t's block index is (t, 0) for the input rows and the result, (0, 0) for the weights and the gain. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 :=
  Nat.lt_of_lt_of_eq t.isLt (show cfg0.N = 8 from N_0)

/-- The array row that row r of point t's block is. -/
def arrRow (t : Fin cfg0.N) (r : Fin 256) : Fin 2048 :=
  ⟨t.val * 256 + r.val, by have := point_lt t; have := r.isLt; omega⟩

/-! ## The input blocks as rows of their arrays -/

/-- Row r of point t's input block is row 256 t + r of the flattened input. -/
theorem xblk_apply (c : Dev nD) (t : Fin cfg0.N) (r k : Fin 256) :
    (iblk m c 0 t : Vec Ideal S256x256 .f32) (ix2 r k) = (V m c main_v0 : S2048x256.Idx → EReal) (ix2 (arrRow t r) k) := by
  obtain ⟨e0, e1, -⟩ := idx_facts t
  show (V m c main_v0 : S2048x256.Idx → EReal) (((cfg0.win 0).blk t).view.emb (ix2 r k)) = _
  refine congrArg (V m c main_v0 : S2048x256.Idx → EReal) (funext fun a => Fin.ext ?_)
  match a with
  | ⟨0, _⟩ => show win0_0.index t (0 : Fin 2) * 256 + 1 * r.val = t.val * 256 + r.val; omega
  | ⟨1, _⟩ => show win0_0.index t (1 : Fin 2) * 256 + 1 * k.val = k.val; omega

/-- The weights' block is the whole matrix at every point. -/
theorem wblk_apply (c : Dev nD) (t : Fin cfg0.N) (d k : Fin 256) :
    (iblk m c 1 t : Vec Ideal S256x256 .f32) (ix2 d k) = (V m c main_arg1 : S256x256.Idx → EReal) (ix2 d k) := by
  obtain ⟨-, -, e2, e3, -⟩ := idx_facts t
  show (V m c main_arg1 : S256x256.Idx → EReal) (((cfg0.win 1).blk t).view.emb (ix2 d k)) = _
  refine congrArg (V m c main_arg1 : S256x256.Idx → EReal) (funext fun a => Fin.ext ?_)
  match a with
  | ⟨0, _⟩ => show win0_1.index t (0 : Fin 2) * 256 + 1 * d.val = d.val; omega
  | ⟨1, _⟩ => show win0_1.index t (1 : Fin 2) * 256 + 1 * k.val = k.val; omega

/-- The gain's block is the whole row at every point. -/
theorem gblk_apply (c : Dev nD) (t : Fin cfg0.N) (d : Fin 256) :
    (iblk m c 2 t : Vec Ideal S1x256 .f32) (ix2 (0 : Fin 1) d) = (V m c main_v1 : S1x256.Idx → EReal) (ix2 (0 : Fin 1) d) := by
  obtain ⟨-, -, -, -, e4, e5, -⟩ := idx_facts t
  show (V m c main_v1 : S1x256.Idx → EReal) (((cfg0.win 2).blk t).view.emb (ix2 (0 : Fin 1) d)) = _
  refine congrArg (V m c main_v1 : S1x256.Idx → EReal) (funext fun a => Fin.ext ?_)
  match a with
  | ⟨0, _⟩ => show win0_2.index t (0 : Fin 2) * 1 + 1 * 0 = 0; omega
  | ⟨1, _⟩ => show win0_2.index t (1 : Fin 2) * 256 + 1 * d.val = d.val; omega

/-- Entry (r, d) of point t's result block lies at (256 t + r, d) of the result array. -/
theorem oblk_emb (t : Fin cfg0.N) (r d : Fin 256) :
    (((cfg0.win 3).blk t).view.emb (ix2 r d) : S2048x256.Idx) = ix2 (arrRow t r) d := by
  obtain ⟨-, -, -, -, -, -, e6, e7⟩ := idx_facts t
  refine funext fun a => Fin.ext ?_
  match a with
  | ⟨0, _⟩ => show win0_3.index t (0 : Fin 2) * 256 + 1 * r.val = t.val * 256 + r.val; omega
  | ⟨1, _⟩ => show win0_3.index t (1 : Fin 2) * 256 + 1 * d.val = d.val; omega

/-! ## What a point writes back -/

/-- The arrays as the region finds them, at their literal types. -/
abbrev xRows (c : Dev nD) : (⟨2, ![2048, 256]⟩ : Shape).Idx → EReal := V m c main_v0
abbrev wMat (c : Dev nD) : (⟨2, ![256, 256]⟩ : Shape).Idx → EReal := V m c main_arg1
abbrev gRow (c : Dev nD) : (⟨2, ![1, 256]⟩ : Shape).Idx → EReal := V m c main_v1

/-- Point t writes back block t of `resultRows` of the arrays. -/
theorem flushed_eq (c : Dev nD) (t : Fin cfg0.N) :
    (dats m 0 c).flushed 3 t = ((cfg0.win 3).blk t).view.read (Elt Ideal) (resultRows (xRows m c) (wMat m c) (gRow m c)) := by
  show (cfg0.win 3).cut (grid0.coords t) ((dats m 0 c).after 3 t) = _
  rw [after0_3]
  funext j
  obtain ⟨r, d, rfl⟩ : ∃ (r d : Fin 256), j = ix2 r d := ⟨j 0, j 1, eq_ix2 j⟩
  show out0_3 (F := Ideal) (iblk m c 0 t) (iblk m c 1 t) (iblk m c 2 t) (ix2 r d)
    = resultRows (xRows m c) (wMat m c) (gRow m c) (((cfg0.win 3).blk t).view.emb (ix2 r d))
  refine (BlockValue.out_apply (iblk m c 0 t) (iblk m c 1 t) (iblk m c 2 t) r d).trans ?_
  refine Eq.trans ?_ (congrArg (resultRows (xRows m c) (wMat m c) (gRow m c)) (oblk_emb t r d)).symm
  show entry _ _ _ = entry _ _ _
  have ha : (fun k => Ideal.tanh ((iblk m c 0 t : Vec Ideal S256x256 .f32) (ix2 r k)))
      = fun k => Ideal.tanh (xRows m c (ix2 (arrRow t r) k)) :=
    funext fun k => congrArg Ideal.tanh (xblk_apply m c t r k)
  have hb : (fun k => Ideal.tanh ((iblk m c 1 t : Vec Ideal S256x256 .f32) (ix2 d k)))
      = fun k => Ideal.tanh (wMat m c (ix2 d k)) :=
    funext fun k => congrArg Ideal.tanh (wblk_apply m c t d k)
  exact (congrArg₂ (fun a b => entry a b _) ha hb).trans (congrArg (entry _ _) (gblk_apply m c t d))

/-! ## The blocks cover the array -/

/-- An index of the result array is in point t's block iff each coordinate is in the block's range. -/
theorem mem_blk (t : Fin cfg0.N) (i : S2048x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v2).slice (win0_3.rect t)).set ↔ _
  rw [View.set_slice_whole, Rect.mem_set_unit]
  exact Iff.rfl

/-- Row n is written back by point n / 256. -/
theorem cover (i : S2048x256.Idx) : ∃ t : Fin cfg0.N, (cfg0.win 3).flush t = true ∧ i ∈ ((cfg0.win 3).blk t).view.set := by
  have h0 : (i 0).val < 2048 := (i 0).isLt
  have h1 : (i 1).val < 256 := (i 1).isLt
  have hN : cfg0.N = 8 := N_0
  refine ⟨⟨(i 0).val / 256, by rw [hN]; omega⟩, flush0_3 _, ?_⟩
  rw [mem_blk]
  obtain ⟨-, -, -, -, -, -, e6, e7⟩ := idx_facts ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e6]
    show (i 0).val / 256 * 256 ≤ (i 0).val ∧ (i 0).val < (i 0).val / 256 * 256 + 256
    omega
  | ⟨1, _⟩ =>
    show win0_3.index _ (1 : Fin 2) * 256 ≤ (i 1).val ∧ (i 1).val < win0_3.index _ (1 : Fin 2) * 256 + 256
    rw [e7]
    omega

/-! ## The result array -/

/-- After the run the result array holds `resultRows` of the arrays as the region finds them. -/
theorem final (c : Dev nD) : (dats m 0 c).arrAt 3 cfg0.N = resultRows (xRows m c) (wMat m c) (gRow m c) :=
  (dats m 0 c).arrAt_eq_of_cover 3 (resultRows (xRows m c) (wMat m c) (gRow m c)) (fun t _ => flushed_eq m c t) cover

end Cert.KernelIdeal.ArrayValue

end
-- ==== Proof.KernelRun.lean ====
/-
  The kernel program's run, read: its result as `DistProxy.result` of the arguments.

  Around the one region the program only changes views: before it, x : [2, 1024, 256] is flattened to [2048, 256] and
  the gain [1, 256, 1] to the row [1, 256]; after it, the region's [2048, 256] result is viewed as [2, 1024, 256]. A
  view moves no element: position (s, t, k) of x is position (1024 s + t, k) of the flattened array, position (0, d, 0)
  of the gain is (0, d) of the row, and position (s, t, d) of the result is (1024 s + t, d) of what the region wrote.
  So `resultRows` of the flattened arrays, viewed back, is `result` of the arguments themselves.
-/
import proofs.«148587_j78245714199351_1_alg».proof.Proof.Gen.KernelIdeal.Frame
import proofs.«148587_j78245714199351_1_alg».proof.Proof.KernelArray
import proofs.«148587_j78245714199351_1_alg».proof.Proof.Spec
import Idealize.ShloMosaic.Lib.Pipeline.Value
import Idealize.ShloMosaic.Lib.StableHlo.Run
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx DistProxy
open Idealize.ShloMosaic.Pipeline (Dat)

variable (m : (ℓ : Loc nD τ sig) → Buf (Elt Ideal) ℓ) (ρ : Dev nD → PrngReg)

/-- The arguments as launched, at their literal types. -/
abbrev argX (c : Dev nD) : (⟨3, ![2, 1024, 256]⟩ : Shape).Idx → EReal := m ((c : Thread nD τ).loc main_arg0)
abbrev argW (c : Dev nD) : (⟨2, ![256, 256]⟩ : Shape).Idx → EReal := m ((c : Thread nD τ).loc main_arg1)
abbrev argG (c : Dev nD) : (⟨3, ![1, 256, 1]⟩ : Shape).Idx → EReal := m ((c : Thread nD τ).loc main_arg2)

/-- The flattened row of (s, t). -/
def row (s : Fin 2) (t : Fin 1024) : Fin 2048 := ⟨s.val * 1024 + t.val, by have := s.isLt; have := t.isLt; omega⟩

/-! ## The views before the region -/

/-- The region finds the flattened input: x viewed as [2048, 256]. -/
theorem xRows_eq (c : Dev nD) :
    ArrayValue.xRows m c = shapeCast S2048x256 (argX m c) shapeCasts_S2x1024x256_S2048x256 := by
  show StableHlo.after hostOps0 (fun b => m (c, b)) (Proc.devRef .tc main_v0) = _
  after_results
  rfl

/-- The region finds the gain as a row: the gain viewed as [1, 256]. -/
theorem gRow_eq (c : Dev nD) :
    ArrayValue.gRow m c = shapeCast S1x256 (argG m c) shapeCasts_S1x256x1_S1x256 := by
  show StableHlo.after hostOps0 (fun b => m (c, b)) (Proc.devRef .tc main_v1) = _
  after_results
  rfl

/-- The region finds the weights as launched. -/
theorem wMat_eq (c : Dev nD) : ArrayValue.wMat m c = argW m c := V_main_arg1 m c

/-- Row (1024 s + t) of the flattened input is row (s, t) of x. -/
theorem xRows_apply (c : Dev nD) (s : Fin 2) (t : Fin 1024) (k : Fin 256) :
    ArrayValue.xRows m c (ix2 (row s t) k) = argX m c (ix3 s t k) := by
  rw [xRows_eq]
  exact shapeCast_apply (argX m c) shapeCasts_S2x1024x256_S2048x256 (ix2 (row s t) k) (ix3 s t k) (by
    rw [Shape.rowMajor_val_three, Shape.rowMajor_val_two]
    rfl)

/-- Entry d of the gain row is the gain at (0, d, 0). -/
theorem gRow_apply (c : Dev nD) (d : Fin 256) :
    ArrayValue.gRow m c (ix2 (0 : Fin 1) d) = argG m c (ix3 (0 : Fin 1) d (0 : Fin 1)) := by
  rw [gRow_eq]
  exact shapeCast_apply (argG m c) shapeCasts_S1x256x1_S1x256 (ix2 (0 : Fin 1) d) (ix3 (0 : Fin 1) d (0 : Fin 1)) (by
    rw [Shape.rowMajor_val_three, Shape.rowMajor_val_two]
    show (0 * 256 + d.val) * 1 + 0 = 0 * 256 + d.val
    omega)

/-! ## The view after the region -/

/-- What the region wrote, viewed as [2, 1024, 256], is `result` of the arguments. -/
theorem unflatten_result (c : Dev nD) (h : S2048x256.ShapeCasts S2x1024x256) :
    shapeCast S2x1024x256 (resultRows (ArrayValue.xRows m c) (ArrayValue.wMat m c) (ArrayValue.gRow m c)) h
      = result (argX m c) (argW m c) (argG m c) := by
  funext i
  obtain ⟨s, t, d, rfl⟩ : ∃ (s : Fin 2) (t : Fin 1024) (d : Fin 256), i = ix3 s t d := ⟨i 0, i 1, i 2, eq_ix3 i⟩
  refine (shapeCast_apply _ h (ix3 s t d) (ix2 (row s t) d) (by
    rw [Shape.rowMajor_val_three, Shape.rowMajor_val_two]
    rfl)).trans ?_
  show entry _ _ _ = entry _ _ _
  have ha : (fun k => Ideal.tanh (ArrayValue.xRows m c (ix2 (row s t) k))) = fun k => Ideal.tanh (argX m c (ix3 s t k)) :=
    funext fun k => congrArg Ideal.tanh (xRows_apply m c s t k)
  have hb : (fun k => Ideal.tanh (ArrayValue.wMat m c (ix2 d k))) = fun k => Ideal.tanh (argW m c (ix2 d k)) := by
    rw [wMat_eq]
  exact (congrArg₂ (fun a b => entry a b _) ha hb).trans (congrArg (entry _ _) (gRow_apply m c d))

/-- The result buffer after the line that follows the region. -/
theorem tail_eq (c : Dev nD) :
    Pipeline.afterTail₀ cfgs (dats m) 0 (V0 m) [hostOps1] c main_v3 = result (argX m c) (argW m c) (argG m c) := by
  unfold Pipeline.afterTail₀
  show StableHlo.after hostOps1 _ (Proc.devRef .tc main_v3) = _
  after_results
  refine Eq.trans ?_ (unflatten_result m c shapeCasts_S2048x256_S2x1024x256)
  exact congrArg (fun a => shapeCast S2x1024x256 a shapeCasts_S2048x256_S2x1024x256)
    ((Pipeline.withArrays_arr spec0 launch0.win.arr_inj c _ _ 3).trans (ArrayValue.final m c))

/-! ## The run -/

/-- Every weakly fair execution of the program terminates with the result at `result` of the arguments and the
    arguments unchanged. -/
theorem run : θ_run defs (onTc (τ := τ) (main (F := Ideal))) ⟨m, fun _ => 0, ρ⟩ fun r => ∀ c : Dev nD,
      r.2.mem ((c.tc : Thread nD τ).loc main_v3) = result (argX m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference's result, entry by entry.

  The reference flattens the activations a = tanh x to 2048 rows, keeps b = tanh w as 256 rows, and works on whole
  arrays: the [2048, 256, 256] table |a (n, k) − b (d, k)| summed over k, the two rows of squares summed over k, the
  product of a with b transposed, then arithmetic entry by entry on [2048, 256], a view back to [2, 1024, 256], and the
  product with the gain broadcast along the last axis. Read at (s, t, d) each broadcast and view looks at one element
  of its operand, and flattened row n = 1024 s + t of a is row (s, t) of tanh x; so the entry is `DistProxy.entry` of row
  (s, t) of tanh x, row d of tanh w and the gain at d — its whole L1 sum taken at once.
-/
import proofs.«148587_j78245714199351_1_alg».proof.Proof.Gen.ReferenceIdeal.Read
import proofs.«148587_j78245714199351_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx DistProxy

variable (x0 : (⟨S2x1024x256, .f32⟩ : BufTy).Contents (Elt Ideal)) (x1 : (⟨S256x256, .f32⟩ : BufTy).Contents (Elt Ideal))
  (x2 : (⟨S1x256x1, .f32⟩ : BufTy).Contents (Elt Ideal))

/-- The flattened row of (s, t). -/
def row (s : Fin 2) (t : Fin 1024) : Fin 2048 := ⟨s.val * 1024 + t.val, by have := s.isLt; have := t.isLt; omega⟩

/-! ## Where each view and broadcast reads -/

theorem unflatten_out (s : Fin 2) (t : Fin 1024) (d : Fin 256) : idx_main_v34 (ix3 s t d) = ix2 (row s t) d :=
  funext fun a => Fin.ext (by
    have hs := s.isLt; have ht := t.isLt; have hd := d.isLt
    match a with
    | ⟨0, _⟩ => show ((s.val * 1024 + t.val) * 256 + d.val) / 256 = s.val * 1024 + t.val; omega
    | ⟨1, _⟩ => show ((s.val * 1024 + t.val) * 256 + d.val) % 256 = d.val; omega)

theorem flatten_in (s : Fin 2) (t : Fin 1024) (k : Fin 256) : idx_main_v1 (ix2 (row s t) k) = ix3 s t k :=
  funext fun a => Fin.ext (by
    have hs := s.isLt; have ht := t.isLt; have hk := k.isLt
    match a with
    | ⟨0, _⟩ => show ((s.val * 1024 + t.val) * 256 + k.val) / 262144 = s.val; omega
    | ⟨1, _⟩ => show ((s.val * 1024 + t.val) * 256 + k.val) / 256 % 1024 = t.val; omega
    | ⟨2, _⟩ => show ((s.val * 1024 + t.val) * 256 + k.val) % 256 = k.val; omega)

theorem table_a (n : Fin 2048) (d k : Fin 256) : idx_main_v3 (idx_main_v5 (idx_main_v9 (ix2 n d) k)) = ix2 n k :=
  funext fun a => Fin.ext (by match a with | ⟨0, _⟩ => rfl | ⟨1, _⟩ => rfl)
theorem table_b (n : Fin 2048) (d k : Fin 256) : idx_main_v4 (idx_main_v6 (idx_main_v9 (ix2 n d) k)) = ix2 d k :=
  funext fun a => Fin.ext (by match a with | ⟨0, _⟩ => rfl | ⟨1, _⟩ => rfl)
theorem sq_a (n : Fin 2048) (d k : Fin 256) : idx_main_v11 (idx_main_v14 (idx_main_v16 (ix2 n d))) k = ix2 n k :=
  funext fun a => Fin.ext (by match a with | ⟨0, _⟩ => rfl | ⟨1, _⟩ => rfl)
theorem sq_b (n : Fin 2048) (d k : Fin 256) : idx_main_v13 (idx_main_v15 (idx_main_v17 (ix2 n d))) k = ix2 d k :=
  funext fun a => Fin.ext (by match a with | ⟨0, _⟩ => rfl | ⟨1, _⟩ => rfl)
theorem dot_a (n : Fin 2048) (d k : Fin 256) : lidx_main_v20 (ix2 n d) k = ix2 n k :=
  funext fun a => Fin.ext (by match a with | ⟨0, _⟩ => rfl | ⟨1, _⟩ => rfl)
theorem dot_b (n : Fin 2048) (d k : Fin 256) : idx_main_v19 (ridx_main_v20 (ix2 n d) k) = ix2 d k :=
  funext fun a => Fin.ext (by match a with | ⟨0, _⟩ => rfl | ⟨1, _⟩ => rfl)
theorem gain_at (s : Fin 2) (t : Fin 1024) (d : Fin 256) :
    idx_main_v37 (idx_main_v38 (ix3 s t d)) = ix3 (0 : Fin 1) d (0 : Fin 1) :=
  funext fun a => Fin.ext (by
    have hd := d.isLt
    match a with
    | ⟨0, _⟩ => rfl
    | ⟨1, _⟩ => show ((0 * 1 + 0) * 256 + d.val) / 1 % 256 = d.val; omega
    | ⟨2, _⟩ => rfl)

/-! ## The pieces at a flattened row -/

/-- The L1 table summed over k, at (n, d). -/
theorem l1_at (n : Fin 2048) (d : Fin 256) :
    val_main_v9 (F := Ideal) x0 x1 (ix2 n d)
      = 0 + l1 (fun k => val_main_v1 (F := Ideal) x0 (ix2 n k)) (fun k => val_main_v2 (F := Ideal) x1 (ix2 d k)) := by
  rw [val_main_v9_apply, val_main_cst_apply]
  refine congrArg₂ (· + ·) Ideal.ofBits_zero_f32 (Finset.sum_congr rfl fun k _ => ?_)
  rw [val_main_v8_apply, val_main_v7_apply, val_main_v5_apply, val_main_v3_apply, val_main_v6_apply, val_main_v4_apply,
    table_a, table_b]
  rfl

/-- The squared L2 distance by its expansion, clipped, at (n, d). -/
theorem l2_at (n : Fin 2048) (d : Fin 256) :
    val_main_v25 (F := Ideal) x0 x1 (ix2 n d)
      = max (((0 + ∑ k, val_main_v1 (F := Ideal) x0 (ix2 n k) * val_main_v1 (F := Ideal) x0 (ix2 n k))
          + (0 + ∑ k, val_main_v2 (F := Ideal) x1 (ix2 d k) * val_main_v2 (F := Ideal) x1 (ix2 d k)))
          - two * ∑ k, val_main_v1 (F := Ideal) x0 (ix2 n k) * val_main_v2 (F := Ideal) x1 (ix2 d k)) 0 := by
  rw [val_main_v25_apply, val_main_v24_apply, val_main_cst_3_apply, val_main_v23_apply, val_main_v18_apply,
    val_main_v16_apply, val_main_v14_apply, val_main_v11_apply, val_main_cst_0_apply,
    val_main_v17_apply, val_main_v15_apply, val_main_v13_apply, val_main_cst_1_apply,
    val_main_v22_apply, val_main_v21_apply, val_main_cst_2_apply, val_main_v20_apply]
  refine congrArg₂ max (congrArg₂ (· - ·) (congrArg₂ (· + ·) (congrArg₂ (· + ·) Ideal.ofBits_zero_f32 (Finset.sum_congr rfl fun k _ => ?_))
    (congrArg₂ (· + ·) Ideal.ofBits_zero_f32 (Finset.sum_congr rfl fun k _ => ?_))) (congrArg (_ * ·) (Finset.sum_congr rfl fun k _ => ?_))) Ideal.ofBits_zero_f32
  · rw [val_main_v10_apply, sq_a]
    rfl
  · rw [val_main_v12_apply, sq_b]
    rfl
  · rw [dot_a, val_main_v19_apply, dot_b]

/-! ## The entry -/

/-- The reference's result at (s, t, d). -/
theorem ref_apply (s : Fin 2) (t : Fin 1024) (d : Fin 256) :
    val_main_v39 (F := Ideal) x0 x1 x2 (ix3 s t d)
      = entry (fun k => Ideal.tanh (x0 (ix3 s t k))) (fun k => Ideal.tanh (x1 (ix2 d k))) (x2 (ix3 (0 : Fin 1) d (0 : Fin 1))) := by
  have ha : (fun k => val_main_v1 (F := Ideal) x0 (ix2 (row s t) k)) = fun k => Ideal.tanh (x0 (ix3 s t k)) :=
    funext fun k => by rw [val_main_v1_apply, val_main_v0_apply, flatten_in]; rfl
  have hb : (fun k => val_main_v2 (F := Ideal) x1 (ix2 d k)) = fun k => Ideal.tanh (x1 (ix2 d k)) := rfl
  rw [val_main_v39_apply, val_main_v38_apply, val_main_v37_apply, gain_at, val_main_v36_apply, val_main_v35_apply,
    val_main_cst_7_apply, val_main_v34_apply, unflatten_out, val_main_v33_apply, val_main_v32_apply, val_main_cst_6_apply,
    val_main_v31_apply, val_main_v30_apply, val_main_v29_apply, val_main_v28_apply, val_main_cst_5_apply,
    val_main_v27_apply, val_main_v26_apply, val_main_cst_4_apply, l1_at, l2_at]
  unfold entry l2sq
  rw [← ha, ← hb]
  simp only [zero_add]
  rfl

/-- The reference's result is `DistProxy.result` of the arguments. -/
theorem ref_eq : val_main_v39 (F := Ideal) x0 x1 x2 = result x0 x1 x2 := by
  funext i
  obtain ⟨s, t, d, rfl⟩ : ∃ (s : Fin 2) (t : Fin 1024) (d : Fin 256), i = ix3 s t d := ⟨i 0, i 1, i 2, eq_ix3 i⟩
  exact ref_apply x0 x1 x2 s t d

end Cert.ReferenceIdeal.RefValue

end
-- ==== Proof.lean ====
/-
  A distance-based layer: for activations a = tanh x (2048 rows of 256) and weights b = tanh w (256 rows of 256) the
  result at (row n, unit d) is ((1 − ((l1/256 − l2/256) + l2/256)) − 1/2) · gain_d, where l1 = Σ_k |a (n, k) − b (d, k)| and
  l2 = max (‖a_n‖² + ‖b_d‖² − 2 ⟨a_n, b_d⟩) 0.

  The kernel computes it block by block over 8 blocks of 256 rows, with the inner products by a matrix product in a
  narrower format (the identity on exact values) and the L1 sum in four slices of 64 columns; the reference computes it
  on whole arrays with the L1 sum taken at once. On the extended reals the two are one function of the arguments,
  `DistProxy.result` (Proof/Spec.lean): every operation reads the same elements in the same order of operations, and
  a sum of 256 terms may be taken as four sums of 64 added up in turn (`DistProxy.sum_chunks`), which needs no
  finiteness. The precondition is not used by the value claim.

  • Proof/KernelBlock.lean: one grid point's output block, entry by entry.
  • Proof/KernelArray.lean: the blocks the 8 points write back cover the result array.
  • Proof/KernelRun.lean: the views around the region; the kernel program's run with its result named.
  • Proof/RefValue.lean: the reference's result, entry by entry.
  The kernel's frames are the generated ones; the reference's frame is its generated run with the result dropped; the
  idealization rewrote nothing, so there is nothing to preserve.
-/
import proofs.«148587_j78245714199351_1_alg».proof.Defs
import proofs.«148587_j78245714199351_1_alg».proof.Proof.Gen.Kernel
import proofs.«148587_j78245714199351_1_alg».proof.Proof.Gen.Kernel.Skeleton
import proofs.«148587_j78245714199351_1_alg».proof.Proof.Gen.Kernel.Launch
import proofs.«148587_j78245714199351_1_alg».proof.Proof.Gen.Kernel.Points
import proofs.«148587_j78245714199351_1_alg».proof.Proof.Gen.Kernel.Frame
import proofs.«148587_j78245714199351_1_alg».proof.Proof.Gen.KernelIdeal
import proofs.«148587_j78245714199351_1_alg».proof.Proof.Gen.KernelIdeal.Skeleton
import proofs.«148587_j78245714199351_1_alg».proof.Proof.Gen.KernelIdeal.Launch
import proofs.«148587_j78245714199351_1_alg».proof.Proof.Gen.KernelIdeal.Points
import proofs.«148587_j78245714199351_1_alg».proof.Proof.Gen.KernelIdeal.Frame
import proofs.«148587_j78245714199351_1_alg».proof.Proof.Gen.ReferenceIdeal
import proofs.«148587_j78245714199351_1_alg».proof.Proof.Gen.Pre_finite_inputs
import proofs.«148587_j78245714199351_1_alg».proof.Proof.Gen.ReferenceIdeal.Run
import proofs.«148587_j78245714199351_1_alg».proof.Proof.Gen.ReferenceIdeal.Read
import proofs.«148587_j78245714199351_1_alg».proof.Proof.Spec
import proofs.«148587_j78245714199351_1_alg».proof.Proof.KernelRun
import proofs.«148587_j78245714199351_1_alg».proof.Proof.RefValue
import Idealize.ShloMosaic.Adequacy
import Idealize.ShloMosaic.Init

noncomputable section

namespace Cert.Proof

open Idealize.ShloMosaic Idealize.SL.Sem

/-- The kernel program runs and leaves its arguments as they were (the generated frame). -/
theorem frame_kernel : Cert.frame_Kernel := fun m ρ _ => Cert.Kernel.Gen.frame m ρ

/-- So does the program read on exact values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `DistProxy.result` of the arguments. -/
theorem algebraic : Cert.algebraic_KernelIdeal_ReferenceIdeal := by
  intro m ρ m' ρ' _ hagree
  refine ⟨fun c => DistProxy.result (Cert.KernelIdeal.RunValue.argX m c) (Cert.KernelIdeal.RunValue.argW m c)
    (Cert.KernelIdeal.RunValue.argG m c), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
